-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : FVec F S64x4096 .f32) (main_arg2 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x4096 : Shape := ⟨2, ![16384, 4096]⟩
abbrev S64x4096 : Shape := ⟨2, ![64, 4096]⟩
abbrev S64 : Shape := ⟨1, ![64]⟩
abbrev S1x64 : Shape := ⟨2, ![1, 64]⟩
abbrev S64x16384 : Shape := ⟨2, ![64, 16384]⟩
abbrev S1024x4096 : Shape := ⟨2, ![1024, 4096]⟩
abbrev S64x1024 : Shape := ⟨2, ![64, 1024]⟩
abbrev S128x4096 : Shape := ⟨2, ![128, 4096]⟩
abbrev S128x64 : Shape := ⟨2, ![128, 64]⟩
abbrev S128 : Shape := ⟨1, ![128]⟩
abbrev S128x1 : Shape := ⟨2, ![128, 1]⟩
abbrev S64x128 : Shape := ⟨2, ![64, 128]⟩
abbrev S16384x64 : Shape := ⟨2, ![16384, 64]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S64x16384, .f32⟩
  | .hbm, ⟨5, _⟩ => ⟨S16384x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1x64, .f32⟩
  | .local _ .vmem, ⟨4, _⟩ => ⟨S64x1024, .f32⟩
  | .local _ .vmem, ⟨5, _⟩ => ⟨S64x1024, .f32⟩
  | .local _ .vmem, ⟨6, _⟩ => ⟨S64x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x4096_S128x4096_0_0 : ∀ a, (![0, 0] : Fin 2 → Nat) a + S128x4096.size a ≤ S1024x4096.size a
  h_S128x4096 : 0 < S128x4096.numel
  broadcasts_S1x64_S128x64 : S1x64.Broadcasts S128x64
  reduces_S128x64_S128 : S128x64.Reduces [1] S128
  shapeCasts_S128_S128x1 : S128.ShapeCasts S128x1
  broadcasts_S128x1_S128x64 : S128x1.Broadcasts S128x64
  transposes_S128x64_p1_0_S64x128 : S128x64.Transposes [1, 0] S64x128
  inb_S64x1024_S64x128_0_0 : ∀ a, (![0, 0] : Fin 2 → Nat) a + S64x128.size a ≤ S64x1024.size a
  h_S64x128 : 0 < S64x128.numel
  inb_S1024x4096_S128x4096_128_0 : ∀ a, (![128, 0] : Fin 2 → Nat) a + S128x4096.size a ≤ S1024x4096.size a
  inb_S64x1024_S64x128_0_128 : ∀ a, (![0, 128] : Fin 2 → Nat) a + S64x128.size a ≤ S64x1024.size a
  inb_S1024x4096_S128x4096_256_0 : ∀ a, (![256, 0] : Fin 2 → Nat) a + S128x4096.size a ≤ S1024x4096.size a
  inb_S64x1024_S64x128_0_256 : ∀ a, (![0, 256] : Fin 2 → Nat) a + S64x128.size a ≤ S64x1024.size a
  inb_S1024x4096_S128x4096_384_0 : ∀ a, (![384, 0] : Fin 2 → Nat) a + S128x4096.size a ≤ S1024x4096.size a
  inb_S64x1024_S64x128_0_384 : ∀ a, (![0, 384] : Fin 2 → Nat) a + S64x128.size a ≤ S64x1024.size a
  inb_S1024x4096_S128x4096_512_0 : ∀ a, (![512, 0] : Fin 2 → Nat) a + S128x4096.size a ≤ S1024x4096.size a
  inb_S64x1024_S64x128_0_512 : ∀ a, (![0, 512] : Fin 2 → Nat) a + S64x128.size a ≤ S64x1024.size a
  inb_S1024x4096_S128x4096_640_0 : ∀ a, (![640, 0] : Fin 2 → Nat) a + S128x4096.size a ≤ S1024x4096.size a
  inb_S64x1024_S64x128_0_640 : ∀ a, (![0, 640] : Fin 2 → Nat) a + S64x128.size a ≤ S64x1024.size a
  inb_S1024x4096_S128x4096_768_0 : ∀ a, (![768, 0] : Fin 2 → Nat) a + S128x4096.size a ≤ S1024x4096.size a
  inb_S64x1024_S64x128_0_768 : ∀ a, (![0, 768] : Fin 2 → Nat) a + S64x128.size a ≤ S64x1024.size a
  inb_S1024x4096_S128x4096_896_0 : ∀ a, (![896, 0] : Fin 2 → Nat) a + S128x4096.size a ≤ S1024x4096.size a
  inb_S64x1024_S64x128_0_896 : ∀ a, (![0, 896] : Fin 2 → Nat) a + S64x128.size a ≤ S64x1024.size a
  transposes_S64x16384_S16384x64_1_0 : S64x16384.Transposes [1, 0] S16384x64
  dot_S128x4096_S64x4096_S128x64_1_1_0_0_n_n_wf : DotDims.WF S128x4096 S64x4096 S128x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S128x4096_S64x4096_S128x64_1_1_0_0_n_n : DotDims S128x4096 S64x4096 S128x64 where
  lhsContracting := [1]
  rhsContracting := [1]
  lhsNonContracting := [0]
  rhsNonContracting := [0]
  lhsBatch := []
  rhsBatch := []
  wf := dot_S128x4096_S64x4096_S128x64_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64 : Shape := ⟨1, ![64]⟩
abbrev S4096x64 : Shape := ⟨2, ![4096, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x4096_S4096x64_S16384x64_1_0_0_1_n_n_wf : DotDims.WF S16384x4096 S4096x64 S16384x64 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.Spec.lean ====
/-
  The gating network's mathematics, with no program in sight.

  A token's row of features x ∈ ℝ̄^K meets an expert table W ∈ ℝ̄^{E×K} and a bias b ∈ ℝ̄^E:
      logit e = (∑ κ, x κ · W e κ) + b e,
  and the gate is the softmax over the experts in its max-subtracted form,
      gate e = exp (logit e − M) / ∑ e', exp (logit e' − M),      M = max (−∞) (max over e of logit e),
  every operation the exact one on the extended reals.  Both programs compute exactly this row function, one
  token at a time; nothing here needs the entries to be finite, because the two sides never re-associate a
  product over a sum: they apply the same operations to the same numbers.
-/
import Idealize.ShloMosaic.Lib.ValueIdx
import Idealize.ShloMosaic.PureOps.Ideal.Laws
import Mathlib.Data.Finset.Fold

noncomputable section

namespace Cert.Gating

open Idealize.ShloMosaic Idealize.ShloMosaic.ValueIdx

/-- The value both programs start a row maximum from: the f32 pattern of −∞. -/
abbrev negInf : EReal := Ideal.ofBits .f32 0xFF800000#32

/-- The maximum of a row, folded from −∞. -/
def rowMax {n : ℕ} (l : Fin n → EReal) : EReal := (Finset.univ : Finset (Fin n)).fold max negInf l

/-- The fold starts at −∞, so taking the maximum with −∞ once more changes nothing. -/
theorem max_negInf_rowMax {n : ℕ} (l : Fin n → EReal) : max negInf (rowMax l) = rowMax l :=
  max_eq_right ((Finset.le_fold_max _).mpr (Or.inl le_rfl))

/-- The max-subtracted softmax of a row, entry `e`. -/
def rowSoftmax {n : ℕ} (l : Fin n → EReal) (e : Fin n) : EReal :=
  Ideal.div (Ideal.exp (l e - rowMax l)) (∑ e' : Fin n, Ideal.exp (l e' - rowMax l))

/-- One token's logits: the row against every expert's weights, plus the bias. -/
def logitRow {K E : ℕ} (x : Fin K → EReal) (W : Fin E → Fin K → EReal) (b : Fin E → EReal) (e : Fin E) : EReal :=
  (∑ κ : Fin K, x κ * W e κ) + b e

/-- One token's gate probabilities. -/
def gateRow {K E : ℕ} (x : Fin K → EReal) (W : Fin E → Fin K → EReal) (b : Fin E → EReal) (e : Fin E) : EReal :=
  rowSoftmax (logitRow x W b) e

/-- The whole result: entry (token r, expert e) is token r's gate for expert e. -/
def gate {T K E : ℕ} (x : (⟨2, ![T, K]⟩ : Shape).Idx → EReal) (W : (⟨2, ![E, K]⟩ : Shape).Idx → EReal)
    (b : (⟨1, ![E]⟩ : Shape).Idx → EReal) : (⟨2, ![T, E]⟩ : Shape).Idx → EReal :=
  fun i => gateRow (fun κ => x (ix2 (i 0) κ)) (fun e κ => W (ix2 e κ)) (fun e => b (ix1 e)) (i 1)

theorem gate_apply {T K E : ℕ} (x : (⟨2, ![T, K]⟩ : Shape).Idx → EReal) (W : (⟨2, ![E, K]⟩ : Shape).Idx → EReal)
    (b : (⟨1, ![E]⟩ : Shape).Idx → EReal) (r : Fin T) (e : Fin E) :
    gate x W b (ix2 r e) = gateRow (fun κ => x (ix2 r κ)) (fun e κ => W (ix2 e κ)) (fun e => b (ix1 e)) e := rfl

end Cert.Gating

end
-- ==== Proof.Tile.lean ====
/-
  One 128-token slab of the kernel's body, as mathematics.

  At every grid point the body cuts its 1024-token block into eight slabs of 128 tokens and does the same thing to each:
  the slab's rows against the expert table (a product contracting the feature axis of BOTH operands, so the table is
  used row by row, untransposed), plus the bias row, then a max-subtracted softmax along the experts, then a
  transpose, so that the stored tile is [expert, token].  The eight stored payloads are one function of
  (table, bias row, slab); read at (expert e, token p) it is the gate of the slab's row p for expert e.
-/
import proofs.«176542_g84026740178975_cont_sun_m_1402_36_alg».proof.Proof.Gen.KernelIdeal.Skeleton
import proofs.«176542_g84026740178975_cont_sun_m_1402_36_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.Gating

section Stages
variable {F : FTy → Type} [FloatOps F]

/-- The slab's logits: rows of the slab against rows of the table, plus the bias row under every token. -/
def logits (w : Vec F S64x4096 .bf16) (bias : FVec F S1x64 .f32) (xs : Vec F S128x4096 .f32) : FVec F S128x64 .f32 :=
  addf (matmul dot_S128x4096_S64x4096_S128x64_1_1_0_0_n_n none (truncf .bf16 xs bitsLt_bf16_f32) w (constant S128x64 .f32 0x00000000#32))
    (broadcastTo S128x64 bias broadcasts_S1x64_S128x64)

/-- Each token's largest logit, written under all of its experts. -/
def rowMaxes (l : FVec F S128x64 .f32) : FVec F S128x64 .f32 :=
  broadcastTo S128x64 (shapeCast S128x1 (multiReduction .maximumf [1] S128 l 0xFF800000#32 reduces_S128x64_S128 (.inl rfl) rfl)
    shapeCasts_S128_S128x1) broadcasts_S128x1_S128x64

/-- The exponentials of the logits less their row maximum. -/
def expd (l : FVec F S128x64 .f32) : FVec F S128x64 .f32 := exp (subf l (rowMaxes l))

/-- Each token's sum over the experts, written under all of them. -/
def rowSums (ex : FVec F S128x64 .f32) : FVec F S128x64 .f32 :=
  broadcastTo S128x64 (shapeCast S128x1 (multiReduction .add [1] S128 ex 0x00000000#32 reduces_S128x64_S128 (.inl rfl) rfl)
    shapeCasts_S128_S128x1) broadcasts_S128x1_S128x64

/-- The softmax along the experts, transposed to [expert, token]. -/
def softT (l : FVec F S128x64 .f32) : FVec F S64x128 .f32 :=
  transpose S64x128 [1, 0] (divf (expd l) (rowSums (expd l))) transposes_S128x64_p1_0_S64x128

/-! The eight stored payloads are that one function (the body spells the bias row's identity reshape once, and in
    the fifth slab names the logits and their maxima before using them). -/

theorem pay1_eq (w : Vec F S64x4096 .bf16) (bias : FVec F S1x64 .f32) (xs : Vec F S128x4096 .f32) :
    k0_pay1 w bias xs = softT (logits w bias xs) := rfl
theorem pay4_eq (w : Vec F S64x4096 .bf16) (b0 : Vec F S1x64 .f32) (xs : Vec F S128x4096 .f32) :
    k0_pay4 w b0 xs = softT (logits w (k0_pay3 b0) xs) := rfl
theorem pay5_eq (w : Vec F S64x4096 .bf16) (b0 : Vec F S1x64 .f32) (xs : Vec F S128x4096 .f32) :
    k0_pay5 w b0 xs = softT (logits w (k0_pay3 b0) xs) := rfl
theorem pay6_eq (w : Vec F S64x4096 .bf16) (bias : FVec F S1x64 .f32) (xs : Vec F S128x4096 .f32) :
    k0_pay6 w bias xs = softT (logits w bias xs) := rfl
theorem pay7_eq (w : Vec F S64x4096 .bf16) (bias : FVec F S1x64 .f32) (xs : Vec F S128x4096 .f32) :
    k0_pay7 w bias xs = softT (logits w bias xs) := rfl
theorem pay10_eq (w : Vec F S64x4096 .bf16) (bias : FVec F S1x64 .f32) (xs : Vec F S128x4096 .f32) :
    k0_pay10 (k0_pay8 w bias xs) (k0_pay9 w bias xs) = softT (logits w bias xs) := rfl
theorem pay11_eq (w : Vec F S64x4096 .bf16) (bias : FVec F S1x64 .f32) (xs : Vec F S128x4096 .f32) :
    k0_pay11 w bias xs = softT (logits w bias xs) := rfl
theorem pay12_eq (w : Vec F S64x4096 .bf16) (bias : FVec F S1x64 .f32) (xs : Vec F S128x4096 .f32) :
    k0_pay12 w bias xs = softT (logits w bias xs) := rfl

end Stages

/-! ## The product's operand indices: (token, feature) on the left, (expert, feature) on the right -/

theorem lhs_mm_0 (i : S128x64.Idx) (q : dot_S128x4096_S64x4096_S128x64_1_1_0_0_n_n.contr.Idx) :
    (dot_S128x4096_S64x4096_S128x64_1_1_0_0_n_n.lhsIdx i q 0).val = (i 0).val := by
  unfold DotDims.lhsIdx
  rw [dif_neg (show ¬(0 : Fin S128x4096.rank) ∈ dot_S128x4096_S64x4096_S128x64_1_1_0_0_n_n.lhsBatch by decide), dif_pos (show (0 : Fin S128x4096.rank) ∈ dot_S128x4096_S64x4096_S128x64_1_1_0_0_n_n.lhsNonContracting by decide)]
  rfl
theorem lhs_mm_1 (i : S128x64.Idx) (q : dot_S128x4096_S64x4096_S128x64_1_1_0_0_n_n.contr.Idx) :
    (dot_S128x4096_S64x4096_S128x64_1_1_0_0_n_n.lhsIdx i q 1).val = (q ⟨0, by decide⟩).val :=
  dot_S128x4096_S64x4096_S128x64_1_1_0_0_n_n.lhsIdx_val_of_single rfl i q
theorem rhs_mm_0 (i : S128x64.Idx) (q : dot_S128x4096_S64x4096_S128x64_1_1_0_0_n_n.contr.Idx) :
    (dot_S128x4096_S64x4096_S128x64_1_1_0_0_n_n.rhsIdx i q 0).val = (i 1).val := by
  unfold DotDims.rhsIdx
  rw [dif_neg (show ¬(0 : Fin S64x4096.rank) ∈ dot_S128x4096_S64x4096_S128x64_1_1_0_0_n_n.rhsBatch by decide), dif_pos (show (0 : Fin S64x4096.rank) ∈ dot_S128x4096_S64x4096_S128x64_1_1_0_0_n_n.rhsNonContracting by decide)]
  rfl
theorem rhs_mm_1 (i : S128x64.Idx) (q : dot_S128x4096_S64x4096_S128x64_1_1_0_0_n_n.contr.Idx) :
    (dot_S128x4096_S64x4096_S128x64_1_1_0_0_n_n.rhsIdx i q 1).val = (q ⟨0, by decide⟩).val :=
  dot_S128x4096_S64x4096_S128x64_1_1_0_0_n_n.rhsIdx_val_of_single rfl i q

/-- The product into a zero accumulator, at (token p, expert e): the sum over the features of slab × table. -/
theorem mm_apply (l : FVec Ideal S128x4096 .bf16) (r : FVec Ideal S64x4096 .bf16) (p : Fin 128) (e : Fin 64) :
    matmul dot_S128x4096_S64x4096_S128x64_1_1_0_0_n_n none l r (constant (F := Ideal) S128x64 .f32 0x00000000#32) (ix2 p e)
      = ∑ κ : Fin 4096, l (ix2 p κ) * r (ix2 e κ) := by
  simp only [matmul]
  rw [Ideal.matmul_constant_zero_apply, ← Equiv.sum_comp (contrEquiv1 dot_S128x4096_S64x4096_S128x64_1_1_0_0_n_n 4096 rfl rfl).symm]
  refine Finset.sum_congr rfl fun k _ => ?_
  have hk := contrEquiv1_symm_val dot_S128x4096_S64x4096_S128x64_1_1_0_0_n_n 4096 rfl rfl k
  have el : dot_S128x4096_S64x4096_S128x64_1_1_0_0_n_n.lhsIdx (ix2 p e) ((contrEquiv1 dot_S128x4096_S64x4096_S128x64_1_1_0_0_n_n 4096 rfl rfl).symm k) = ix2 p k := funext fun a => Fin.ext (by
    match a with
    | ⟨0, _⟩ => exact lhs_mm_0 _ _
    | ⟨1, _⟩ => exact (lhs_mm_1 _ _).trans hk)
  have er : dot_S128x4096_S64x4096_S128x64_1_1_0_0_n_n.rhsIdx (ix2 p e) ((contrEquiv1 dot_S128x4096_S64x4096_S128x64_1_1_0_0_n_n 4096 rfl rfl).symm k) = ix2 e k := funext fun a => Fin.ext (by
    match a with
    | ⟨0, _⟩ => exact rhs_mm_0 _ _
    | ⟨1, _⟩ => exact (rhs_mm_1 _ _).trans hk)
  rw [el, er]

/-! ## The layout operations of the slab, at an index -/

/-- The bias row under every token. -/
theorem biasRow_apply {α : Type} (v : S1x64.Idx → α) (p : Fin 128) (e : Fin 64) :
    broadcastTo S128x64 v broadcasts_S1x64_S128x64 (ix2 p e) = v (ix2 (0 : Fin 1) e) :=
  broadcastTo_apply v broadcasts_S1x64_S128x64 (ix2 p e) (ix2 (0 : Fin 1) e) (fun a => match a with
    | ⟨0, _⟩ => by show 0 = if (1 : Nat) = 1 then 0 else p.val; rw [if_pos rfl]
    | ⟨1, _⟩ => by show e.val = if (64 : Nat) = 1 then 0 else e.val; rw [if_neg (by decide)])

/-- A per-token column under every expert. -/
theorem column_apply {α : Type} (v : S128.Idx → α) (p : Fin 128) (e : Fin 64) :
    broadcastTo S128x64 (shapeCast S128x1 v shapeCasts_S128_S128x1) broadcasts_S128x1_S128x64 (ix2 p e) = v (ix1 p) := by
  refine (broadcastTo_apply _ broadcasts_S128x1_S128x64 (ix2 p e) (ix2 p (0 : Fin 1)) (fun a => match a with
    | ⟨0, _⟩ => by show p.val = if (128 : Nat) = 1 then 0 else p.val; rw [if_neg (by decide)]
    | ⟨1, _⟩ => by show 0 = if (1 : Nat) = 1 then 0 else e.val; rw [if_pos rfl])).trans ?_
  exact shapeCast_apply v shapeCasts_S128_S128x1 (ix2 p (0 : Fin 1)) (ix1 p) (by
    rw [Shape.rowMajor_val_two, Shape.rowMajor_val_one]
    show p.val = p.val * 1 + 0
    omega)

/-- The source index a reduction along the experts reads for token p at expert k. -/
theorem lift_eq (p : Fin 128) (k : Fin 64) : reduces_S128x64_S128.lift (ix1 p) k = ix2 p k :=
  funext fun a => Fin.ext (by match a with | ⟨0, _⟩ => rfl | ⟨1, _⟩ => rfl)

theorem rowMaxes_apply (l : FVec Ideal S128x64 .f32) (p : Fin 128) (e : Fin 64) :
    rowMaxes (F := Ideal) l (ix2 p e) = rowMax (fun k : Fin 64 => l (ix2 p k)) := by
  unfold rowMaxes
  refine (column_apply _ p e).trans ?_
  refine (Ideal.multiReduction_maximumf_single l _ reduces_S128x64_S128 _ _ (ix1 p)).trans ?_
  unfold rowMax
  exact congrArg (Finset.fold max negInf · Finset.univ) (funext fun k => congrArg l (lift_eq p k))

theorem expd_apply (l : FVec Ideal S128x64 .f32) (p : Fin 128) (e : Fin 64) :
    expd (F := Ideal) l (ix2 p e) = Ideal.exp (l (ix2 p e) - rowMax (fun k : Fin 64 => l (ix2 p k))) := by
  show Ideal.exp (l (ix2 p e) - rowMaxes (F := Ideal) l (ix2 p e)) = _
  rw [rowMaxes_apply]

theorem rowSums_apply (ex : FVec Ideal S128x64 .f32) (p : Fin 128) (e : Fin 64) :
    rowSums (F := Ideal) ex (ix2 p e) = ∑ k : Fin 64, ex (ix2 p k) := by
  unfold rowSums
  refine (column_apply _ p e).trans ?_
  refine (Ideal.multiReduction_add_single ex _ reduces_S128x64_S128 _ _ (ix1 p)).trans ?_
  exact Finset.sum_congr rfl fun k _ => congrArg ex (lift_eq p k)

/-- The transposed softmax at (expert e, token p): the row softmax of token p's logits, entry e. -/
theorem softT_apply (l : FVec Ideal S128x64 .f32) (e : Fin 64) (p : Fin 128) :
    softT (F := Ideal) l (ix2 e p) = rowSoftmax (fun k : Fin 64 => l (ix2 p k)) e := by
  unfold softT
  rw [ValueIdx.transpose_ix2_apply]
  show Ideal.div (expd (F := Ideal) l (ix2 p e)) (rowSums (F := Ideal) (expd (F := Ideal) l) (ix2 p e)) = _
  rw [rowSums_apply, expd_apply]
  unfold rowSoftmax
  exact congrArg (Ideal.div _) (Finset.sum_congr rfl fun k _ => expd_apply l p k)

/-- The slab's logits at (token p, expert e). -/
theorem logits_apply (w : Vec Ideal S64x4096 .bf16) (bias : FVec Ideal S1x64 .f32) (xs : Vec Ideal S128x4096 .f32)
    (p : Fin 128) (e : Fin 64) :
    logits (F := Ideal) w bias xs (ix2 p e)
      = logitRow (fun κ : Fin 4096 => xs (ix2 p κ)) (fun (e : Fin 64) (κ : Fin 4096) => w (ix2 e κ)) (fun e : Fin 64 => bias (ix2 (0 : Fin 1) e)) e := by
  show matmul dot_S128x4096_S64x4096_S128x64_1_1_0_0_n_n none (truncf .bf16 xs bitsLt_bf16_f32) w (constant (F := Ideal) S128x64 .f32 0x00000000#32) (ix2 p e)
      + broadcastTo S128x64 bias broadcasts_S1x64_S128x64 (ix2 p e) = _
  rw [mm_apply, biasRow_apply]
  rfl

/-- THE SLAB: what the body stores for a slab, at (expert e, token p), is the gate of the slab's row p for expert e. -/
theorem slab_apply (w : Vec Ideal S64x4096 .bf16) (bias : FVec Ideal S1x64 .f32) (xs : Vec Ideal S128x4096 .f32)
    (e : Fin 64) (p : Fin 128) :
    softT (F := Ideal) (logits (F := Ideal) w bias xs) (ix2 e p)
      = gateRow (fun κ : Fin 4096 => xs (ix2 p κ)) (fun (e : Fin 64) (κ : Fin 4096) => w (ix2 e κ)) (fun e : Fin 64 => bias (ix2 (0 : Fin 1) e)) e := by
  rw [softT_apply]
  unfold gateRow
  exact congrArg (rowSoftmax · e) (funext fun k => logits_apply w bias xs p k)

end Cert.KernelIdeal.Tile

end
-- ==== Proof.Block.lean ====
/-
  What one grid point leaves behind.

  A grid point holds a block of 1024 tokens, the whole expert table, and the bias row.  Its eight stores tile the
  [64, 1024] output block by token slabs of 128, each the slab function of (the table as the scratch holds it, the
  bias row, the slab of the token block).  Read at (expert e, token q) the block is therefore the gate of token q of
  the block — one function of the block index, whatever slab q falls in.  The first grid point also fills the scratch
  with the table (a change of float format, the identity on the extended reals); every later point finds it there.
-/
import proofs.«176542_g84026740178975_cont_sun_m_1402_36_alg».proof.Proof.Gen.KernelIdeal.Frame
import proofs.«176542_g84026740178975_cont_sun_m_1402_36_alg».proof.Proof.Tile

set_option maxRecDepth 16384

noncomputable section

namespace Cert.KernelIdeal.Block

open Cert.KernelIdeal Cert.KernelIdeal.Gen Cert.KernelIdeal.Tile Idealize.ShloMosaic Idealize.ShloMosaic.TcCoe
open Idealize.ShloMosaic.Tactic Idealize.ShloMosaic.ValueIdx Cert.Gating
open Idealize.SL Idealize.SL.Sem

/-- The output block of a grid point as ONE function of the block index: at (expert, token) the gate of that token
    of the point's token block `x0`, against the table `w` and the bias row `b0`. -/
def blockGate (x0 : Vec Ideal S1024x4096 .f32) (w : Vec Ideal S64x4096 .bf16) (b0 : Vec Ideal S1x64 .f32) : Vec Ideal S64x1024 .f32 :=
  fun y => gateRow (fun κ : Fin 4096 => x0 (ix2 (y 1) κ)) (fun (e : Fin 64) (κ : Fin 4096) => w (ix2 e κ))
    (fun e : Fin 64 => b0 (ix2 (0 : Fin 1) e)) (y 0)

/-- The bias row's reshape to its own shape is the identity. -/
theorem pay3_eq {F : FTy → Type} [FloatOps F] (v : Vec F S1x64 .f32) : k0_pay3 v = v := shapeCast_self v _

/-- The table, narrowed for the scratch: the same extended reals. -/
theorem pay2_apply (x1 : Vec Ideal S64x4096 .f32) (j : S64x4096.Idx) : k0_pay2 (F := Ideal) x1 j = x1 j := by
  unfold k0_pay2
  exact congrFun (shapeCast_self _ _) j

/-- A slab's stored tile, at (expert e, token q of the slab), is the block function at the slab's place in the block. -/
theorem slab_piece (x0 : Vec Ideal S1024x4096 .f32) (w : Vec Ideal S64x4096 .bf16) (b0 : Vec Ideal S1x64 .f32) (off : ℕ)
    (inbO : ∀ a, (![0, off] : Fin 2 → ℕ) a + S64x128.size a ≤ S64x1024.size a)
    (inbI : ∀ a, (![off, 0] : Fin 2 → ℕ) a + S128x4096.size a ≤ S1024x4096.size a) (e : Fin 64) (q : Fin 128) :
    softT (F := Ideal) (logits (F := Ideal) w b0 (View.ld x0 (Rect.unit (s := S1024x4096) ![off, 0] S128x4096.size inbI))) (ix2 e q)
      = blockGate x0 w b0 ((Rect.unit (s := S64x1024) ![0, off] S64x128.size inbO).emb (ix2 e q)) := by
  refine (slab_apply w b0 _ e q).trans ?_
  unfold blockGate
  have h0 : ((Rect.unit (s := S64x1024) ![0, off] S64x128.size inbO).emb (ix2 e q)) 0 = e :=
    Fin.ext (by show 0 + 1 * e.val = e.val; omega)
  have h1 : ∀ κ : Fin 4096, View.ld x0 (Rect.unit (s := S1024x4096) ![off, 0] S128x4096.size inbI) (ix2 q κ)
      = x0 (ix2 (((Rect.unit (s := S64x1024) ![0, off] S64x128.size inbO).emb (ix2 e q)) 1) κ) := fun κ =>
    congrArg x0 (funext fun a => Fin.ext (by
      match a with
      | ⟨0, _⟩ => rfl
      | ⟨1, _⟩ => show 0 + 1 * κ.val = κ.val; omega))
  rw [h0]
  exact congrArg (fun f => gateRow f _ _ e) (funext h1)

theorem hz2 : (![0, 0] : Fin 2 → ℕ) = fun _ => 0 := by
  funext a; match a with | ⟨0, _⟩ => rfl | ⟨1, _⟩ => rfl

/-- Eight slab tiles, side by side along the tokens, make the block function. -/
theorem canon_slabs (x0 : Vec Ideal S1024x4096 .f32) (w : Vec Ideal S64x4096 .bf16) (b0 : Vec Ideal S1x64 .f32) :
    View.canon [
      (⟨Rect.unit (s := S64x1024) ![0, 896] S64x128.size (by decide), softT (F := Ideal) (logits (F := Ideal) w b0 (View.ld x0 (Rect.unit (s := S1024x4096) ![896, 0] S128x4096.size (by decide))))⟩ : View.Piece (Elt Ideal) S64x1024 .f32),
      (⟨Rect.unit (s := S64x1024) ![0, 768] S64x128.size (by decide), softT (F := Ideal) (logits (F := Ideal) w b0 (View.ld x0 (Rect.unit (s := S1024x4096) ![768, 0] S128x4096.size (by decide))))⟩ : View.Piece (Elt Ideal) S64x1024 .f32),
      (⟨Rect.unit (s := S64x1024) ![0, 640] S64x128.size (by decide), softT (F := Ideal) (logits (F := Ideal) w b0 (View.ld x0 (Rect.unit (s := S1024x4096) ![640, 0] S128x4096.size (by decide))))⟩ : View.Piece (Elt Ideal) S64x1024 .f32),
      (⟨Rect.unit (s := S64x1024) ![0, 512] S64x128.size (by decide), softT (F := Ideal) (logits (F := Ideal) w b0 (View.ld x0 (Rect.unit (s := S1024x4096) ![512, 0] S128x4096.size (by decide))))⟩ : View.Piece (Elt Ideal) S64x1024 .f32),
      (⟨Rect.unit (s := S64x1024) ![0, 384] S64x128.size (by decide), softT (F := Ideal) (logits (F := Ideal) w b0 (View.ld x0 (Rect.unit (s := S1024x4096) ![384, 0] S128x4096.size (by decide))))⟩ : View.Piece (Elt Ideal) S64x1024 .f32),
      (⟨Rect.unit (s := S64x1024) ![0, 256] S64x128.size (by decide), softT (F := Ideal) (logits (F := Ideal) w b0 (View.ld x0 (Rect.unit (s := S1024x4096) ![256, 0] S128x4096.size (by decide))))⟩ : View.Piece (Elt Ideal) S64x1024 .f32),
      (⟨Rect.unit (s := S64x1024) ![0, 128] S64x128.size (by decide), softT (F := Ideal) (logits (F := Ideal) w b0 (View.ld x0 (Rect.unit (s := S1024x4096) ![128, 0] S128x4096.size (by decide))))⟩ : View.Piece (Elt Ideal) S64x1024 .f32),
      (⟨Rect.unit (s := S64x1024) ![0, 0] S64x128.size (by decide), softT (F := Ideal) (logits (F := Ideal) w b0 (View.ld x0 (Rect.unit (s := S1024x4096) ![0, 0] S128x4096.size (by decide))))⟩ : View.Piece (Elt Ideal) S64x1024 .f32)]
      = blockGate x0 w b0 := by
  funext y
  refine View.canon_apply_of_pieces (blockGate x0 w b0) _ ?_ y ?_
  · intro p hp
    simp only [List.mem_cons, List.mem_nil_iff, or_false] at hp
    rcases hp with rfl | rfl | rfl | rfl | rfl | rfl | rfl | rfl <;> intro x <;>
      (obtain ⟨e, q, rfl⟩ : ∃ (e : Fin 64) (q : Fin 128), x = ix2 e q := ⟨x 0, x 1, eq_ix2 x⟩) <;>
      exact slab_piece x0 w b0 _ (by decide) (by decide) e q
  · exact View.cover_of_tiledL (s := S64x1024) _ S64x128.size (by sl_kernel_rfl) y

/-- The first grid point's output block: the block function over the table as it has just narrowed it into the scratch. -/
theorem outA_eq (c : Dev nD) (i : grid0.Coords) (arg1 : Memref sig .tc .vmem S1024x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S64x1024 .f32) (harg4 : arg4.IsWhole) (arg5 : Memref sig .tc .vmem S64x4096 .bf16) (harg5 : arg5.IsWhole) (hc0 : cond0_0 i)
    (x0 : Vec Ideal S1024x4096 .f32) (x1 : Vec Ideal S64x4096 .f32) (x2 : Vec Ideal S1x64 .f32) :
    out0_A_3 (F := Ideal) c i arg1 harg1 arg2 harg2 arg3 harg3 arg4 harg4 arg5 harg5 hc0 x0 x1 x2 = blockGate x0 (k0_pay2 (F := Ideal) x1) x2 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  simp only [View.readAt_eq_ld, harg1.read_unread, harg2.read_unread, harg3.read_unread,
    View.ld_unit_zero (S := S64x4096) hz2, View.ld_unit_zero (S := S1x64) hz2, View.readCov_unit_zero (S := S64x4096) _ hz2,
    pay1_eq, pay4_eq, pay5_eq, pay6_eq, pay7_eq, pay10_eq, pay11_eq, pay12_eq, pay3_eq]
  exact canon_slabs x0 (k0_pay2 (F := Ideal) x1) x2

/-- The first grid point leaves the narrowed table in the scratch. -/
theorem soutA_eq (c : Dev nD) (i : grid0.Coords) (arg1 : Memref sig .tc .vmem S1024x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S64x1024 .f32) (harg4 : arg4.IsWhole) (arg5 : Memref sig .tc .vmem S64x4096 .bf16) (harg5 : arg5.IsWhole) (hc0 : cond0_0 i)
    (x0 : Vec Ideal S1024x4096 .f32) (x1 : Vec Ideal S64x4096 .f32) (x2 : Vec Ideal S1x64 .f32) :
    sout0_A_0 (F := Ideal) c i arg1 harg1 arg2 harg2 arg3 harg3 arg4 harg4 arg5 harg5 hc0 x0 x1 x2 = k0_pay2 (F := Ideal) x1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_unit_zero hz2]
  simp only [View.readAt_eq_ld, harg2.read_unread, View.ld_unit_zero (S := S64x4096) hz2]

/-- A later grid point's output block: the block function over the table the scratch already holds. -/
theorem outB_eq (c : Dev nD) (i : grid0.Coords) (arg1 : Memref sig .tc .vmem S1024x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S64x1024 .f32) (harg4 : arg4.IsWhole) (arg5 : Memref sig .tc .vmem S64x4096 .bf16) (harg5 : arg5.IsWhole) (hc0 : ¬cond0_0 i)
    (x0 : Vec Ideal S1024x4096 .f32) (x1 : Vec Ideal S64x4096 .f32) (x2 : Vec Ideal S1x64 .f32) (xs0 : Vec Ideal S64x4096 .bf16) :
    out0_B_3 (F := Ideal) c i arg1 harg1 arg2 harg2 arg3 harg3 arg4 harg4 arg5 harg5 hc0 x0 x1 x2 xs0 = blockGate x0 xs0 x2 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  simp only [View.readAt_eq_ld, harg1.read_unread, harg3.read_unread, harg5.read_unread,
    View.ld_unit_zero (S := S64x4096) hz2, View.ld_unit_zero (S := S1x64) hz2,
    pay1_eq, pay4_eq, pay5_eq, pay6_eq, pay7_eq, pay10_eq, pay11_eq, pay12_eq, pay3_eq]
  exact canon_slabs x0 xs0 x2

end Cert.KernelIdeal.Block

end
-- ==== Proof.KValue.lean ====
/-
  From the blocks to the program's result.

  Grid point t holds tokens 1024·t … 1024·t + 1023: its token block is those rows of x, the table and the bias row
  are the same at every point.  The scratch is filled once, at the first point, and only read afterwards, so at every
  point it holds the (narrowed) table: an induction along the grid.  Hence every point writes back the block
  (all experts, its 1024 tokens) of ONE array, the transposed gate  Gᵀ[e, r] = gate(x, W, b)[r, e];  the sixteen
  blocks tile the [64, 16384] array, so that is what the region leaves, and the program's last line transposes it
  back: the result is gate(x, W, b).
-/
import proofs.«176542_g84026740178975_cont_sun_m_1402_36_alg».proof.Proof.Gen.KernelIdeal.Frame
import proofs.«176542_g84026740178975_cont_sun_m_1402_36_alg».proof.Proof.Block
import Idealize.ShloMosaic.Lib.Pipeline.Value
import Idealize.ShloMosaic.Lib.StableHlo.Run
import Idealize.ShloMosaic.Lib.Tactic
import Idealize.ShloMosaic.Lib.ValueLayout

set_option maxRecDepth 16384

noncomputable section

namespace Cert.KernelIdeal.KValue

open Cert.KernelIdeal Cert.KernelIdeal.Gen Cert.KernelIdeal.Tile Cert.KernelIdeal.Block
open Idealize.ShloMosaic Idealize.ShloMosaic.TcCoe Idealize.ShloMosaic.Tactic Idealize.ShloMosaic.ValueIdx Cert.Gating
open Idealize.SL Idealize.SL.Sem
open Idealize.ShloMosaic.Pipeline (Dat)

variable (m : (ℓ : Loc nD τ sig) → Buf (Elt Ideal) ℓ) (ρ : Dev nD → PrngReg)

/-- The arrays as the region finds them, at their literal types. -/
abbrev xarr (c : Dev nD) : Vec Ideal S16384x4096 .f32 := V m c main_arg0
abbrev warr (c : Dev nD) : Vec Ideal S64x4096 .f32 := V m c main_arg1
abbrev brow (c : Dev nD) : Vec Ideal S1x64 .f32 := V m c main_v0
/-- The blocks a grid point is handed, at their literal types. -/
abbrev xblk (c : Dev nD) (t : Fin cfg0.N) : Vec Ideal S1024x4096 .f32 := iblk m c 0 t
abbrev wblk (c : Dev nD) (t : Fin cfg0.N) : Vec Ideal S64x4096 .f32 := iblk m c 1 t
abbrev bblk (c : Dev nD) (t : Fin cfg0.N) : Vec Ideal S1x64 .f32 := iblk m c 2 t

/-- The index maps over the grid: tokens move with the point, the table and the bias row stay, the output moves
    along its token axis. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The table's block is the table. -/
theorem wblk_eq (c : Dev nD) (t : Fin cfg0.N) : wblk m c t = warr m c := by
  obtain ⟨_, _, e0, e1, _⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 64 + 1 * (j 0).val = (j 0).val; omega
  | ⟨1, _⟩ => show win0_1.index t (1 : Fin 2) * 4096 + 1 * (j 1).val = (j 1).val; omega

/-- The bias row's block is the bias row. -/
theorem bblk_eq (c : Dev nD) (t : Fin cfg0.N) : bblk m c t = brow m c := by
  obtain ⟨_, _, _, _, e0, e1, _⟩ := idx_facts t
  funext j
  show V m c main_v0 (((cfg0.win 2).blk t).view.emb j) = V m c main_v0 j
  refine congrArg (V m c main_v0) (funext fun a => Fin.ext ?_)
  match a with
  | ⟨0, _⟩ => show win0_2.index t (0 : Fin 2) * 1 + 1 * (j 0).val = (j 0).val; omega
  | ⟨1, _⟩ => show win0_2.index t (1 : Fin 2) * 64 + 1 * (j 1).val = (j 1).val; omega

/-- Token q of point t's block is token 1024·t + q of x. -/
theorem xblk_apply (c : Dev nD) (t : Fin cfg0.N) (q : Fin 1024) (κ : Fin 4096) (r : Fin 16384) (hr : r.val = 1024 * t.val + q.val) :
    xblk m c t (ix2 q κ) = xarr m c (ix2 r κ) := by
  obtain ⟨e0, e1, _⟩ := idx_facts t
  show V m c main_arg0 (((cfg0.win 0).blk t).view.emb (ix2 q κ)) = V m c main_arg0 (ix2 r κ)
  refine congrArg (V m c main_arg0) (funext fun a => Fin.ext ?_)
  match a with
  | ⟨0, _⟩ => show win0_0.index t (0 : Fin 2) * 1024 + 1 * q.val = r.val; omega
  | ⟨1, _⟩ => show win0_0.index t (1 : Fin 2) * 4096 + 1 * κ.val = κ.val; omega

/-- THE SCRATCH ALONG THE GRID: after every point it holds the narrowed table (filled at the first point, kept since). -/
theorem scratch_eq (c : Dev nD) : ∀ (n : ℕ) (h : n < cfg0.N), (outsAt0 m c n h).2 = k0_pay2 (F := Ideal) (warr m c)
  | 0, h => by
    rw [outsAt0_A m c ⟨0, h⟩ rfl]
    dsimp only
    rw [soutA_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (xblk m c ⟨0, h⟩) (wblk m c ⟨0, h⟩) (bblk m c ⟨0, h⟩)]
    rw [wblk_eq]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    unfold sout0_B_0
    exact scratch_eq c n _

/-- What point t leaves in the output's staging buffer: the block function of its token block, the table, the bias row. -/
theorem out_eq (c : Dev nD) (t : Fin cfg0.N) :
    (outsAt0 m c t.val t.isLt).1 = blockGate (xblk m c t) (k0_pay2 (F := Ideal) (warr m c)) (brow m c) := by
  by_cases h0 : t.val % 16 = 0
  · rw [outsAt0_A m c t h0]
    dsimp only
    rw [outA_eq c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (wblk m c t) (bblk m c t)]
    rw [wblk_eq, bblk_eq]
  · rw [outsAt0_B m c t h0]
    dsimp only
    rw [outB_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xblk m c t) (wblk m c t) (bblk m c t) (outsAt0 m c (t.val - 1) (Nat.lt_of_le_of_lt (Nat.sub_le _ _) t.isLt)).2]
    rw [scratch_eq, bblk_eq]

/-- The array the region leaves: the gate, transposed — at (expert, token) the gate of that token of x. -/
def gateT (c : Dev nD) : Vec Ideal S64x16384 .f32 :=
  fun y => gateRow (fun κ : Fin 4096 => xarr m c (ix2 (y 1) κ)) (fun (e : Fin 64) (κ : Fin 4096) => k0_pay2 (F := Ideal) (warr m c) (ix2 e κ))
    (fun e : Fin 64 => brow m c (ix2 (0 : Fin 1) e)) (y 0)

/-- WHAT POINT t WRITES BACK is block t of the transposed gate. -/
theorem flushed_eq (c : Dev nD) (t : Fin cfg0.N) :
    (dats m 0 c).flushed 3 t = ((cfg0.win 3).blk t).view.read (Elt Ideal) (gateT m c) := by
  show (cfg0.win 3).cut (grid0.coords t) ((dats m 0 c).after 3 t) = _
  rw [after0_3, out_eq]
  obtain ⟨_, _, _, _, _, _, o0, o1⟩ := idx_facts t
  funext j
  show blockGate (xblk m c t) (k0_pay2 (F := Ideal) (warr m c)) (brow m c) j = gateT m c (((cfg0.win 3).blk t).view.emb j)
  unfold blockGate gateT
  have hN : cfg0.N = 16 := N_0
  have ht : t.val < 16 := hN ▸ t.isLt
  have hj1 : (j 1).val < 1024 := (j 1).isLt
  have h0 : (((cfg0.win 3).blk t).view.emb j) 0 = j 0 :=
    Fin.ext (by show win0_3.index t (0 : Fin 2) * 64 + 1 * (j 0).val = (j 0).val; omega)
  have h1 : ((((cfg0.win 3).blk t).view.emb j) 1).val = 1024 * t.val + (j 1).val := by
    show win0_3.index t (1 : Fin 2) * 1024 + 1 * (j 1).val = _; omega
  rw [h0]
  exact congrArg (fun f => gateRow f _ _ (j 0)) (funext fun κ => xblk_apply m c t (j 1) κ _ h1)

/-- An index of the array is in point t's block iff each coordinate is in the block's range on its axis. -/
theorem mem_blk (t : Fin cfg0.N) (i : S64x16384.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v1).slice (win0_3.rect t)).set ↔ _
  rw [View.set_slice_whole, Rect.mem_set_unit]
  exact Iff.rfl

/-- The sixteen blocks tile the array: token r lies in the block of point r / 1024. -/
theorem cover (i : S64x16384.Idx) : ∃ t : Fin cfg0.N, (cfg0.win 3).flush t = true ∧ i ∈ ((cfg0.win 3).blk t).view.set := by
  have hN : cfg0.N = 16 := N_0
  have hi0 : (i 0).val < 64 := (i 0).isLt
  have hi1 : (i 1).val < 16384 := (i 1).isLt
  refine ⟨⟨(i 1).val / 1024, by omega⟩, flush0_3 _, ?_⟩
  rw [mem_blk]
  obtain ⟨_, _, _, _, _, _, o0, o1⟩ := idx_facts ⟨(i 1).val / 1024, by omega⟩
  intro a
  match a with
  | ⟨0, _⟩ => show win0_3.index _ (0 : Fin 2) * 64 ≤ (i 0).val ∧ (i 0).val < win0_3.index _ (0 : Fin 2) * 64 + 64; rw [o0]; omega
  | ⟨1, _⟩ => show win0_3.index _ (1 : Fin 2) * 1024 ≤ (i 1).val ∧ (i 1).val < win0_3.index _ (1 : Fin 2) * 1024 + 1024; rw [o1]; dsimp only; omega

/-- THE ARRAY after the region: the transposed gate. -/
theorem final (c : Dev nD) : (dats m 0 c).arrAt 3 cfg0.N = gateT m c :=
  (dats m 0 c).arrAt_eq_of_cover 3 (gateT m c) (fun t _ => flushed_eq m c t) cover

/-- The bias row is the bias vector laid out as one row (the program's first line). -/
theorem brow_eq (c : Dev nD) : brow m c = shapeCast S1x64 (m ((c : Thread nD τ).loc main_arg2)) shapeCasts_S64_S1x64 := by
  show StableHlo.after hostOps0 (fun b => m (c, b)) (Proc.devRef .tc main_v0) = _
  after_results
  rfl

/-- The program's last line transposes the region's array. -/
theorem tail_eq (c : Dev nD) : Pipeline.afterTail₀ cfgs (dats m) 0 (V0 m) [hostOps1] c main_v2
    = transpose S16384x64 [1, 0] (gateT m c) transposes_S64x16384_S16384x64_1_0 := by
  unfold Pipeline.afterTail₀
  show StableHlo.after hostOps1 _ (Proc.devRef .tc main_v2) = _
  after_results
  exact congrArg (fun A => transpose S16384x64 [1, 0] A transposes_S64x16384_S16384x64_1_0)
    ((Pipeline.withArrays_arr spec0 launch0.win.arr_inj c _ _ 3).trans (final m c))

/-- Transposed back, over the arrays as launched: the gate of (x, W, b). -/
theorem result_eq (c : Dev nD) :
    transpose S16384x64 [1, 0] (gateT m c) transposes_S64x16384_S16384x64_1_0
      = gate (T := 16384) (K := 4096) (E := 64) (m ((c : Thread nD τ).loc main_arg0)) (m ((c : Thread nD τ).loc main_arg1)) (m ((c : Thread nD τ).loc main_arg2)) := by
  funext i
  obtain ⟨r, e, rfl⟩ : ∃ (r : Fin 16384) (e : Fin 64), i = ix2 r e := ⟨i 0, i 1, eq_ix2 i⟩
  rw [ValueIdx.transpose_ix2_apply, gate_apply]
  have hx : ∀ κ : Fin 4096, xarr m c (ix2 r κ) = m ((c : Thread nD τ).loc main_arg0) (ix2 r κ) := fun κ =>
    congrFun (V_main_arg0 m c) _
  have hw : ∀ (e : Fin 64) (κ : Fin 4096), k0_pay2 (F := Ideal) (warr m c) (ix2 e κ) = m ((c : Thread nD τ).loc main_arg1) (ix2 e κ) := fun e κ =>
    (pay2_apply _ _).trans (congrFun (V_main_arg1 m c) _)
  have hb : ∀ e : Fin 64, brow m c (ix2 (0 : Fin 1) e) = m ((c : Thread nD τ).loc main_arg2) (ix1 e) := fun e => by
    rw [brow_eq]; exact shapeCast_a_1a_apply _ _ 0 e
  show gateRow (fun κ : Fin 4096 => xarr m c (ix2 r κ)) (fun (e : Fin 64) (κ : Fin 4096) => k0_pay2 (F := Ideal) (warr m c) (ix2 e κ))
    (fun e : Fin 64 => brow m c (ix2 (0 : Fin 1) e)) e = _
  rw [funext hx, funext fun e => funext (hw e), funext hb]

/-- THE KERNEL'S RUN, READ: the program ends with its result at the gate of its arguments, the arguments unchanged. -/
theorem run : θ_run defs (onTc (τ := τ) (main (F := Ideal))) ⟨m, fun _ => 0, ρ⟩ fun r => ∀ c : Dev nD,
      r.2.mem ((c : Thread nD τ).loc main_v2) = gate (T := 16384) (K := 4096) (E := 64) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v2 (Pipeline.mem_restRefs_of main_v2 (by decide) (by decide))).trans ((tail_eq m c).trans (result_eq m c)),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference program computes the gating network.

  Read one operation at a time, the reference's result at (token r, expert e) is
      exp (l r e − M r) / (0 + ∑ e', exp (l r e' − M r)),
  where l r e = (∑ κ, x r κ · W e κ) + b e is the logit (the product of x with the transposed expert table, plus the
  broadcast bias) and M r = max (−∞) (the maximum over e of l r e, folded from −∞).  On the extended reals each
  operation is the exact one, 0 + s = s, and taking the maximum with −∞ once more changes nothing, so this is the
  max-subtracted softmax of token r's logits: the gate.
-/
import proofs.«176542_g84026740178975_cont_sun_m_1402_36_alg».proof.Proof.Gen.ReferenceIdeal.Read
import proofs.«176542_g84026740178975_cont_sun_m_1402_36_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Gating

variable (x0 : (⟨S16384x4096, .f32⟩ : BufTy).Contents (Elt Ideal)) (x1 : (⟨S64x4096, .f32⟩ : BufTy).Contents (Elt Ideal))
  (x2 : (⟨S64, .f32⟩ : BufTy).Contents (Elt Ideal))

/-- The logits of token r, as the specification writes them. -/
abbrev logit (r : Fin 16384) : Fin 64 → EReal :=
  logitRow (fun κ => x0 (ix2 r κ)) (fun e κ => x1 (ix2 e κ)) (fun e => x2 (ix1 e))

/-- The sum the reference adds the bias to is the row of x against expert e's row of W: the transpose only renames
    the index, and the contraction runs over the feature axis. -/
theorem v4_apply (r : Fin 16384) (e : Fin 64) :
    val_main_v4 (F := Ideal) x0 x1 x2 (ix2 r e) = logit x0 x1 x2 r e := by
  rw [val_main_v4_apply, val_main_v1_apply, val_main_v3_apply, val_main_v2_apply]
  show (∑ k : Fin 4096, _) + _ = (∑ κ : Fin 4096, _) + _
  refine congrArg₂ (· + ·) (Finset.sum_congr rfl fun k _ => ?_) ?_
  · rw [val_main_v0_apply]
    refine congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x2 (funext fun a => Fin.ext (by match a with | ⟨0, _⟩ => rfl))

/-- The reduce over the experts is the maximum of the row folded from −∞. -/
theorem v5_apply (r : Fin 16384) :
    val_main_v5 (F := Ideal) x0 x1 x2 (ix1 r) = rowMax (logit x0 x1 x2 r) := by
  have h : S16384x64.Reduces [1] S16384 := by decide
  unfold val_main_v5
  refine (Host.reduce_eq_fold_single (FloatOps.maximumf (F := Ideal) (φ := .f32)) _ _ reducesTo_S16384x64_S16384_d1 h h_S_ (ix1 r)).trans ?_
  show (Finset.univ : Finset (Fin 64)).fold max negInf _ = (Finset.univ : Finset (Fin 64)).fold max negInf _
  refine Finset.fold_congr fun k _ => ?_
  refine Eq.trans ?_ (v4_apply x0 x1 x2 r k)
  exact congrArg (val_main_v4 (F := Ideal) x0 x1 x2) (funext fun a => Fin.ext (by match a with | ⟨0, _⟩ => rfl | ⟨1, _⟩ => rfl))

/-- The maximum with the −∞ splat leaves the maximum of the row. -/
theorem v7_apply (r : Fin 16384) :
    val_main_v7 (F := Ideal) x0 x1 x2 (ix1 r) = rowMax (logit x0 x1 x2 r) := by
  rw [val_main_v7_apply, val_main_v6_apply, val_main_cst_0_apply, v5_apply]
  exact max_negInf_rowMax _

/-- The subtracted maximum, broadcast back over the experts. -/
theorem v9_apply (r : Fin 16384) (e : Fin 64) :
    val_main_v9 (F := Ideal) x0 x1 x2 (ix2 r e) = rowMax (logit x0 x1 x2 r) := by
  rw [val_main_v9_apply, val_main_v8_apply]
  refine Eq.trans ?_ (v7_apply x0 x1 x2 r)
  exact congrArg (val_main_v7 (F := Ideal) x0 x1 x2) (funext fun a => Fin.ext (by match a with | ⟨0, _⟩ => rfl))

/-- The exponential of the max-subtracted logit. -/
theorem v11_apply (r : Fin 16384) (e : Fin 64) :
    val_main_v11 (F := Ideal) x0 x1 x2 (ix2 r e)
      = Ideal.exp (logit x0 x1 x2 r e - rowMax (logit x0 x1 x2 r)) := by
  rw [val_main_v11_apply, val_main_v10_apply, v4_apply, v9_apply]
  rfl

/-- The sum over the experts, started from the zero literal. -/
theorem v12_apply (r : Fin 16384) :
    val_main_v12 (F := Ideal) x0 x1 x2 (ix1 r)
      = ∑ e' : Fin 64, Ideal.exp (logit x0 x1 x2 r e' - rowMax (logit x0 x1 x2 r)) := by
  rw [val_main_v12_apply, val_main_cst_1_apply]
  show Ideal.ofBits .f32 0x00000000#32 + _ = _
  rw [Ideal.ofBits_zero_f32, zero_add]
  refine Finset.sum_congr rfl fun k _ => ?_
  refine Eq.trans ?_ (v11_apply x0 x1 x2 r k)
  exact congrArg (val_main_v11 (F := Ideal) x0 x1 x2) (funext fun a => Fin.ext (by match a with | ⟨0, _⟩ => rfl | ⟨1, _⟩ => rfl))

/-- The sum, broadcast back over the experts. -/
theorem v14_apply (r : Fin 16384) (e : Fin 64) :
    val_main_v14 (F := Ideal) x0 x1 x2 (ix2 r e)
      = ∑ e' : Fin 64, Ideal.exp (logit x0 x1 x2 r e' - rowMax (logit x0 x1 x2 r)) := by
  rw [val_main_v14_apply, val_main_v13_apply]
  refine Eq.trans ?_ (v12_apply x0 x1 x2 r)
  exact congrArg (val_main_v12 (F := Ideal) x0 x1 x2) (funext fun a => Fin.ext (by match a with | ⟨0, _⟩ => rfl))

/-- The result of the reference is the gate. -/
theorem result_eq_gate (x0 : (⟨S16384x4096, .f32⟩ : BufTy).Contents (Elt Ideal)) (x1 : (⟨S64x4096, .f32⟩ : BufTy).Contents (Elt Ideal)) (x2 : (⟨S64, .f32⟩ : BufTy).Contents (Elt Ideal)) :
    Cert.ReferenceIdeal.Read.val_main_v15 (F := Ideal) x0 x1 x2 = Cert.Gating.gate x0 x1 x2 := by
  funext i
  obtain ⟨r, e, rfl⟩ : ∃ (r : Fin 16384) (e : Fin 64), i = ix2 r e := ⟨i 0, i 1, eq_ix2 i⟩
  rw [gate_apply, val_main_v15_apply, v11_apply, v14_apply]
  rfl

end Cert.ReferenceIdeal.RefValue

end
-- ==== Proof.lean ====
/-
  The gating network  probs = softmax(x · Wᵀ + b)  over 64 experts: the kernel against its jnp reference.

  Over the extended reals both programs compute, for every token r and expert e,
      exp (l r e − M r) / ∑ e', exp (l r e' − M r),    l r e = (∑ κ, x r κ · W e κ) + b e,   M r = max over e of l r e
  (Proof/Spec.lean: `Cert.Gating.gate`).  The kernel walks the tokens in sixteen blocks of 1024 and each block in
  eight slabs of 128; it keeps a narrowed copy of W in a scratch it fills at the first block (a change of float
  format: the identity here), contracts each slab with the copy row against row, adds the bias row, takes the
  max-subtracted softmax along the experts, and stores the slab transposed; the program transposes the whole array
  back at the end.  The reference transposes W, multiplies, adds the broadcast bias and applies the same softmax.
  The two agree operation by operation; no law of arithmetic beyond  0 + s = s  and  max (−∞) M = M  is used, so the
  precondition (finite inputs) is never opened.

    Proof/Tile.lean     a slab's stored tile at (expert, token) is that token's gate;
    Proof/Block.lean    the eight tiles of a block make one function of the block index; the scratch holds W;
    Proof/KValue.lean   along the grid the scratch keeps W, each point writes back its block of the transposed gate,
                        the blocks tile the array, and the last line transposes it: the kernel's run ends at the gate;
    Proof/RefValue.lean the reference's result, read operation by operation, is the gate.
-/
import proofs.«176542_g84026740178975_cont_sun_m_1402_36_alg».proof.Defs
import proofs.«176542_g84026740178975_cont_sun_m_1402_36_alg».proof.Proof.Gen.Kernel
import proofs.«176542_g84026740178975_cont_sun_m_1402_36_alg».proof.Proof.Gen.Kernel.Skeleton
import proofs.«176542_g84026740178975_cont_sun_m_1402_36_alg».proof.Proof.Gen.Kernel.Launch
import proofs.«176542_g84026740178975_cont_sun_m_1402_36_alg».proof.Proof.Gen.Kernel.Points
import proofs.«176542_g84026740178975_cont_sun_m_1402_36_alg».proof.Proof.Gen.Kernel.Frame
import proofs.«176542_g84026740178975_cont_sun_m_1402_36_alg».proof.Proof.Gen.KernelIdeal
import proofs.«176542_g84026740178975_cont_sun_m_1402_36_alg».proof.Proof.Gen.KernelIdeal.Skeleton
import proofs.«176542_g84026740178975_cont_sun_m_1402_36_alg».proof.Proof.Gen.KernelIdeal.Launch
import proofs.«176542_g84026740178975_cont_sun_m_1402_36_alg».proof.Proof.Gen.KernelIdeal.Points
import proofs.«176542_g84026740178975_cont_sun_m_1402_36_alg».proof.Proof.Gen.KernelIdeal.Frame
import proofs.«176542_g84026740178975_cont_sun_m_1402_36_alg».proof.Proof.Gen.ReferenceIdeal
import proofs.«176542_g84026740178975_cont_sun_m_1402_36_alg».proof.Proof.Gen.Pre_finite_inputs
import proofs.«176542_g84026740178975_cont_sun_m_1402_36_alg».proof.Proof.Gen.ReferenceIdeal.Run
import proofs.«176542_g84026740178975_cont_sun_m_1402_36_alg».proof.Proof.Gen.ReferenceIdeal.Read
import proofs.«176542_g84026740178975_cont_sun_m_1402_36_alg».proof.Proof.KValue
import proofs.«176542_g84026740178975_cont_sun_m_1402_36_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the gate of their (agreeing) arguments. -/
theorem algebraic : Cert.algebraic_KernelIdeal_ReferenceIdeal := by
  intro m ρ m' ρ' _ hagree
  refine ⟨fun c => Cert.Gating.gate (T := 16384) (K := 4096) (E := 64)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq_gate,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
